-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S1000x1024 .f32) (main_arg2 : FVec F S1024x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1000 : Shape := ⟨1, ![1000]⟩
abbrev S10x100x1024 : Shape := ⟨3, ![10, 100, 1024]⟩
abbrev S10x128x1024 : Shape := ⟨3, ![10, 128, 1024]⟩
abbrev S1280x1024 : Shape := ⟨2, ![1280, 1024]⟩
abbrev S1024x1280 : Shape := ⟨2, ![1024, 1280]⟩
abbrev S10x100 : Shape := ⟨2, ![10, 100]⟩
abbrev S10x128 : Shape := ⟨2, ![10, 128]⟩
abbrev S1x1280 : Shape := ⟨2, ![1, 1280]⟩
abbrev S16384x128 : Shape := ⟨2, ![16384, 128]⟩
abbrev S1024x128 : Shape := ⟨2, ![1024, 128]⟩
abbrev S1024x1 : Shape := ⟨2, ![1024, 1]⟩
abbrev S16384x100 : Shape := ⟨2, ![16384, 100]⟩

abbrev nBuf : Space → Nat
  | .hbm => 26
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1024x1024, .f32⟩
  | .hbm, ⟨3, _⟩ => ⟨S1024, .f32⟩
  | .hbm, ⟨4, _⟩ => ⟨S1000x1024, .f32⟩
  | .hbm, ⟨5, _⟩ => ⟨S1x1024, .f32⟩
  | .hbm, ⟨6, _⟩ => ⟨S1000x1024, .f32⟩
  | .hbm, ⟨7, _⟩ => ⟨S1000x1024, .f32⟩
  | .hbm, ⟨8, _⟩ => ⟨S1000x1024, .bf16⟩
  | .hbm, ⟨9, _⟩ => ⟨S1000x1024, .f32⟩
  | .hbm, ⟨10, _⟩ => ⟨S1000x1024, .f32⟩
  | .hbm, ⟨11, _⟩ => ⟨S_, .f32⟩
  | .hbm, ⟨12, _⟩ => ⟨S1000, .f32⟩
  | .hbm, ⟨13, _⟩ => ⟨S10x100x1024, .bf16⟩
  | .hbm, ⟨14, _⟩ => ⟨S_, .i32⟩
  | .hbm, ⟨15, _⟩ => ⟨S_, .bf16⟩
  | .hbm, ⟨16, _⟩ => ⟨S10x128x1024, .bf16⟩
  | .hbm, ⟨17, _⟩ => ⟨S1280x1024, .bf16⟩
  | .hbm, ⟨18, _⟩ => ⟨S1024x1280, .bf16⟩
  | .hbm, ⟨19, _⟩ => ⟨S10x100, .f32⟩
  | .hbm, ⟨20, _⟩ => ⟨S_, .f32⟩
  | .hbm, ⟨21, _⟩ => ⟨S_, .f32⟩
  | .hbm, ⟨22, _⟩ => ⟨S10x128, .f32⟩
  | .hbm, ⟨23, _⟩ => ⟨S1x1280, .f32⟩
  | .hbm, ⟨24, _⟩ => ⟨S16384x128, .f32⟩
  | .hbm, ⟨25, _⟩ => ⟨S16384x100, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1x1280, .f32⟩
  | .local _ .vmem, ⟨4, _⟩ => ⟨S1024x128, .f32⟩
  | .local _ .vmem, ⟨5, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  bitsLt_bf16_f32 : FTy.bits .bf16 < FTy.bits .f32
  reducesTo_S1000x1024_S1000_d1 : S1000x1024.ReducesTo [1] S1000
  h_S_ : 0 < S_.numel
  shapeCasts_S1000x1024_S10x100x1024 : S1000x1024.ShapeCasts S10x100x1024
  pads_S10x100x1024_S10x128x1024_000_0280_000 : S10x100x1024.Pads (![0, 0, 0] : Fin 3 → Nat) ![0, 28, 0] ![0, 0, 0] S10x128x1024
  shapeCasts_S10x128x1024_S1280x1024 : S10x128x1024.ShapeCasts S1280x1024
  transposes_S1280x1024_S1024x1280_1_0 : S1280x1024.Transposes [1, 0] S1024x1280
  shapeCasts_S1000_S10x100 : S1000.ShapeCasts S10x100
  pads_S10x100_S10x128_000_0280 : S10x100.Pads (![0, 0] : Fin 2 → Nat) ![0, 28] ![0, 0] S10x128
  shapeCasts_S10x128_S1x1280 : S10x128.ShapeCasts S1x1280
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  broadcasts_S1024x1_S1024x1280 : S1024x1.Broadcasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  slices_S1024x1280_o0_0_S1024x128 : S1024x1280.Slices ![0, 0] S1024x128
  slices_S1024x1280_o0_128_S1024x128 : S1024x1280.Slices ![0, 128] S1024x128
  slices_S1024x1280_o0_256_S1024x128 : S1024x1280.Slices ![0, 256] S1024x128
  slices_S1024x1280_o0_384_S1024x128 : S1024x1280.Slices ![0, 384] S1024x128
  slices_S1024x1280_o0_512_S1024x128 : S1024x1280.Slices ![0, 512] S1024x128
  slices_S1024x1280_o0_640_S1024x128 : S1024x1280.Slices ![0, 640] S1024x128
  slices_S1024x1280_o0_768_S1024x128 : S1024x1280.Slices ![0, 768] S1024x128
  slices_S1024x1280_o0_896_S1024x128 : S1024x1280.Slices ![0, 896] S1024x128
  slices_S1024x1280_o0_1024_S1024x128 : S1024x1280.Slices ![0, 1024] S1024x128
  slices_S1024x1280_o0_1152_S1024x128 : S1024x1280.Slices ![0, 1152] S1024x128
  inb_S1024x128_S1024x128_0_0 : ∀ a, (![0, 0] : Fin 2 → Nat) a + S1024x128.size a ≤ S1024x128.size a
  h_S1024x128 : 0 < S1024x128.numel
  slices_S16384x128_S16384x100_0_0 : S16384x128.Slices ![0, 0] S16384x100
  dot_S1000x1024_S1024x1024_S1000x1024_1_0_0_1_n_n_wf : DotDims.WF S1000x1024 S1024x1024 S1000x1024 [1] [0] [0] [1] [] []
  dot_S1024x1024_S1024x1280_S1024x1280_1_0_0_1_n_n_wf : DotDims.WF S1024x1024 S1024x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S1024x1280.size a
  hwx0_1 : ∀ i : grid0.Coords, EltTy.bits .bf16 = 32 ∨ (Rect.block (s := S1024x1280) S1024x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1024x1000 : Shape := ⟨2, ![1024, 1000]⟩
abbrev S16384x1000 : Shape := ⟨2, ![16384, 1000]⟩
abbrev S1x1000 : Shape := ⟨2, ![1, 1000]⟩
abbrev S16384x10x100 : Shape := ⟨3, ![16384, 10, 100]⟩
abbrev S16384x100 : Shape := ⟨2, ![16384, 100]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1024x1024, .f32⟩
  | .hbm, ⟨3, _⟩ => ⟨S1024, .f32⟩
  | .hbm, ⟨4, _⟩ => ⟨S1000x1024, .f32⟩
  | .hbm, ⟨5, _⟩ => ⟨S1x1024, .f32⟩
  | .hbm, ⟨6, _⟩ => ⟨S1000x1024, .f32⟩
  | .hbm, ⟨7, _⟩ => ⟨S1000x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1000x1024, .f32⟩
  | .hbm, ⟨13, _⟩ => ⟨S_, .f32⟩
  | .hbm, ⟨14, _⟩ => ⟨S1000, .f32⟩
  | .hbm, ⟨15, _⟩ => ⟨S1024x1000, .f32⟩
  | .hbm, ⟨16, _⟩ => ⟨S16384x1000, .f32⟩
  | .hbm, ⟨17, _⟩ => ⟨S_, .f32⟩
  | .hbm, ⟨18, _⟩ => ⟨S16384x1000, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S1x1000, .f32⟩
  | .hbm, ⟨23, _⟩ => ⟨S16384x1000, .f32⟩
  | .hbm, ⟨24, _⟩ => ⟨S16384x1000, .f32⟩
  | .hbm, ⟨25, _⟩ => ⟨S_, .f32⟩
  | .hbm, ⟨26, _⟩ => ⟨S16384x1000, .f32⟩
  | .hbm, ⟨27, _⟩ => ⟨S16384x1000, .f32⟩
  | .hbm, ⟨28, _⟩ => ⟨S16384x1000, .f32⟩
  | .hbm, ⟨29, _⟩ => ⟨S16384x10x100, .f32⟩
  | .hbm, ⟨30, _⟩ => ⟨S_, .f32⟩
  | .hbm, ⟨31, _⟩ => ⟨S16384x100, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  transposes_S1000x1024_S1024x1000_1_0 : S1000x1024.Transposes [1, 0] S1024x1000
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  shapeCasts_S16384x1000_S16384x10x100 : S16384x1000.ShapeCasts S16384x10x100
  reducesTo_S16384x10x100_S16384x100_d1 : S16384x10x100.ReducesTo [1] S16384x100
  dot_S1000x1024_S1024x1024_S1000x1024_1_0_0_1_n_n_wf : DotDims.WF S1000x1024 S1024x1024 S1000x1024 [1] [0] [0] [1] [] []
  dot_S16384x1024_S1024x1000_S16384x1000_1_0_0_1_n_n_wf : DotDims.WF S16384x1024 S1024x1000 S16384x1000 [1] [0] [0] [1] [] []

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf

class Facts : Prop extends Facts₀ where

variable [Facts]
-- ==== Proof.NearestProto.lean ====
/-
  The mathematics both programs compute, stated once over the extended reals, and the one law that joins them.

  For a batch row `b` of `x` and an encoded prototype row `r` of `e` the squared distance is expanded as
  ‖x_b‖² − 2·⟨x_b, e_r⟩ + ‖e_r‖². The prototypes come in 10 groups of 100 classes: row `p·100 + c` is prototype `p` of
  class `c`. The result at (b, c) is the distance from x_b to the nearest of class c's ten prototypes: the square root
  of the squared distance clamped at zero.

  One program clamps and takes the root ONCE, after a 10-way minimum of squared distances laid out as a balanced tree
  over lane groups of 128 (class `c` of prototype `p` in lane `p·128 + c`, the lanes 100 … 127 of each group padding that
  the result drops); the other takes the minimum of the ten roots, folded from +∞. Clamping at zero and then taking the
  root is a monotone map of the extended reals, a monotone map commutes with a binary minimum, and +∞ is neutral for
  the minimum: so the two agree, with no finiteness needed.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.NearestProto

/-- The factor 2, as the f32 word both programs carry. -/
abbrev two : EReal := Ideal.ofBits .f32 0x40000000#32

/-- ‖a_r‖²: the sum of the squares of row `r`. -/
def rowSq {n : Nat} (a : (⟨2, ![n, 1024]⟩ : Shape).Idx → EReal) (r : Fin n) : EReal :=
  ∑ k : Fin 1024, a (ix2 r k) * a (ix2 r k)

/-- ⟨x_b, e_r⟩. -/
def inner {n : Nat} (x : (⟨2, ![n, 1024]⟩ : Shape).Idx → EReal) (e : (⟨2, ![1000, 1024]⟩ : Shape).Idx → EReal)
    (b : Fin n) (r : Fin 1000) : EReal :=
  ∑ k : Fin 1024, x (ix2 b k) * e (ix2 r k)

/-- The expanded squared distance from batch row `b` to encoded prototype row `r`. -/
def sqDist {n : Nat} (x : (⟨2, ![n, 1024]⟩ : Shape).Idx → EReal) (e : (⟨2, ![1000, 1024]⟩ : Shape).Idx → EReal)
    (b : Fin n) (r : Fin 1000) : EReal :=
  rowSq x b - two * inner x e b r + rowSq e r

/-- Clamp at zero, then the square root. -/
def clampRoot (z : EReal) : EReal := Ideal.sqrt (max z 0)

/-- The minimum of ten values as the balanced tree ((01)(23))((45)(67)) then (89). -/
def min10 (a : Fin 10 → EReal) : EReal :=
  min (min (min (min (a 0) (a 1)) (min (a 2) (a 3))) (min (min (a 4) (a 5)) (min (a 6) (a 7)))) (min (a 8) (a 9))

/-- Prototype `p` of class `c` is row `p·100 + c`. -/
def protoRow (p : Fin 10) (c : Fin 100) : Fin 1000 := ⟨p.val * 100 + c.val, by have := p.isLt; have := c.isLt; omega⟩

/-- In the lane-padded layout, lane `j` of group `p` is column `p·128 + j`. -/
def lane (p : Fin 10) (j : Fin 128) : Fin 1280 := ⟨p.val * 128 + j.val, by have := p.isLt; have := j.isLt; omega⟩

/-- A class as a lane of its group. -/
def classLane (c : Fin 100) : Fin 128 := ⟨c.val, by have := c.isLt; omega⟩

/-- THE RESULT: the distance from batch row `b` to the nearest prototype of class `c`. -/
def nearest {n : Nat} (x : (⟨2, ![n, 1024]⟩ : Shape).Idx → EReal) (e : (⟨2, ![1000, 1024]⟩ : Shape).Idx → EReal)
    (b : Fin n) (c : Fin 100) : EReal :=
  clampRoot (min10 fun p => sqDist x e b (protoRow p c))

/-- The lane-padded form: over a transposed, lane-padded prototype matrix `w` (1024 × 1280) and a lane-padded row of
    squared norms `q` (1 × 1280), at batch row `b` and lane `j` of every group. -/
def padded {n : Nat} (x : (⟨2, ![n, 1024]⟩ : Shape).Idx → EReal) (w : (⟨2, ![1024, 1280]⟩ : Shape).Idx → EReal)
    (q : (⟨2, ![1, 1280]⟩ : Shape).Idx → EReal) (b : Fin n) (j : Fin 128) : EReal :=
  clampRoot (min10 fun p =>
    rowSq x b - two * (∑ k : Fin 1024, x (ix2 b k) * w (ix2 k (lane p j))) + q (ix2 (0 : Fin 1) (lane p j)))

/-! ## The square root is monotone, so clamp-then-root commutes with minima -/

theorem sqrt_mono : Monotone Ideal.sqrt := by
  intro a b hab
  induction a using EReal.rec with
  | bot => rw [Ideal.sqrt_bot]; exact bot_le
  | top => rw [top_le_iff.mp hab]
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      split_ifs with h1 h2
      · exact le_rfl
      · exact bot_le
      · exfalso; linarith
      · exact EReal.coe_le_coe_iff.mpr (Real.sqrt_le_sqrt hrs)

theorem clampRoot_mono : Monotone clampRoot := fun _ _ h => sqrt_mono (max_le_max h le_rfl)

theorem clampRoot_min (a b : EReal) : clampRoot (min a b) = min (clampRoot a) (clampRoot b) :=
  clampRoot_mono.map_min

/-- Clamp-then-root of the tree minimum is the tree minimum of the clamped roots. -/
theorem clampRoot_min10 (a : Fin 10 → EReal) : clampRoot (min10 a) = min10 fun p => clampRoot (a p) := by
  unfold min10
  simp only [clampRoot_min]

/-- The f32 word of +∞ is the top of the extended reals. -/
theorem top_word : Ideal.ofBits .f32 0x7F800000#32 = ⊤ := by simp [Ideal.ofBits, Ideal.ieee]

/-- A minimum folded from +∞ over ten values, in any order, is their tree minimum. -/
theorem fold_min_fin10 (g : Fin 10 → EReal) :
    (Finset.univ : Finset (Fin 10)).fold min (Ideal.ofBits .f32 0x7F800000#32) g = min10 g := by
  rw [top_word]
  refine eq_of_forall_le_iff fun z => ?_
  rw [Finset.le_fold_min]
  unfold min10
  simp only [le_min_iff, le_top, true_and, Finset.mem_univ, forall_true_left]
  constructor
  · intro h; exact ⟨⟨⟨⟨h 0, h 1⟩, h 2, h 3⟩, ⟨h 4, h 5⟩, h 6, h 7⟩, h 8, h 9⟩
  · rintro ⟨⟨⟨⟨h0, h1⟩, h2, h3⟩, ⟨h4, h5⟩, h6, h7⟩, h8, h9⟩ p
    fin_cases p
    · exact h0
    · exact h1
    · exact h2
    · exact h3
    · exact h4
    · exact h5
    · exact h6
    · exact h7
    · exact h8
    · exact h9

/-- THE LAW: the minimum, folded from +∞, of the ten clamped roots is the clamped root of the tree minimum. -/
theorem fold_clampRoot (a : Fin 10 → EReal) :
    (Finset.univ : Finset (Fin 10)).fold min (Ideal.ofBits .f32 0x7F800000#32) (fun p => clampRoot (a p))
      = clampRoot (min10 a) := by
  rw [fold_min_fin10, clampRoot_min10]

/-- The lane-padded form at a class's lane is `nearest`, once the padded matrix holds the prototypes transposed at the
    class lanes and the padded row their squared norms there. -/
theorem padded_eq_nearest {n : Nat} (x : (⟨2, ![n, 1024]⟩ : Shape).Idx → EReal) (e : (⟨2, ![1000, 1024]⟩ : Shape).Idx → EReal)
    (w : (⟨2, ![1024, 1280]⟩ : Shape).Idx → EReal) (q : (⟨2, ![1, 1280]⟩ : Shape).Idx → EReal) (b : Fin n) (c : Fin 100)
    (hw : ∀ (p : Fin 10) (k : Fin 1024), w (ix2 k (lane p (classLane c))) = e (ix2 (protoRow p c) k))
    (hq : ∀ p : Fin 10, q (ix2 (0 : Fin 1) (lane p (classLane c))) = rowSq e (protoRow p c)) :
    padded x w q b (classLane c) = nearest x e b c := by
  unfold padded nearest sqDist inner
  congr 2
  funext p
  rw [hq p]
  congr 3
  exact Finset.sum_congr rfl fun k _ => by rw [hw p k]

end Cert.NearestProto

end
-- ==== Proof.RefNearest.lean ====
/-
  The reference program read at an index of its result.

  The result's element (b, c) is a minimum, folded from +∞ over the ten prototypes p of class c, of the element
  (b, p, c) of a reshaped distance matrix; that element is entry (b, p·100 + c) of the matrix of clamped roots of
  the expanded squared distances ‖x_b‖² − 2·⟨x_b, e_r⟩ + ‖e_r‖², where e is the encoded prototype matrix (kept
  opaque here). The joining law of the specification then turns the fold of the ten clamped roots into the clamped
  root of the tree minimum.
-/
import proofs.«158394_j86114094284878_2_alg».proof.Proof.Gen.ReferenceIdeal.Read
import proofs.«158394_j86114094284878_2_alg».proof.Proof.NearestProto
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.NearestProto

/-! ## The three terms of the expanded squared distance -/

/-- ‖x_b‖², broadcast along the prototype rows. -/
theorem batchNorm_at (x0 : FVec Ideal S16384x1024 .f32) (b : Fin 16384) (r : Fin 1000) :
    val_main_v13 (F := Ideal) x0 (ix2 b r) = rowSq x0 b := by
  rw [val_main_v13_apply, val_main_v6_apply, val_main_v5_apply]
  show Ideal.ofBits .f32 0x00000000#32 + _ = _
  rw [Ideal.ofBits_zero_f32, zero_add]
  unfold rowSq
  refine Finset.sum_congr rfl fun k _ => ?_
  have e : idx_main_v5 (idx_main_v6 (idx_main_v13 (ix2 b r))) k = ix2 b k :=
    funext fun a => Fin.ext (by match a with | ⟨0, _⟩ => rfl | ⟨1, _⟩ => rfl)
  rw [e]
  rfl

/-- ‖e_r‖², broadcast along the batch rows. -/
theorem protoNorm_at (x1 : FVec Ideal S1000x1024 .f32) (x2 : FVec Ideal S1024x1024 .f32) (x3 : FVec Ideal S1024 .f32)
    (b : Fin 16384) (r : Fin 1000) :
    val_main_v16 (F := Ideal) x1 x2 x3 (ix2 b r) = rowSq (val_main_v3 (F := Ideal) x1 x2 x3) r := by
  rw [val_main_v16_apply, val_main_v15_apply, val_main_v8_apply]
  show Ideal.ofBits .f32 0x00000000#32 + _ = _
  rw [Ideal.ofBits_zero_f32, zero_add]
  unfold rowSq
  refine Finset.sum_congr rfl fun k _ => ?_
  have e : idx_main_v8 (idx_main_v15 (idx_main_v16 (ix2 b r))) k = ix2 r k :=
    funext fun a => Fin.ext (by match a with | ⟨0, _⟩ => rfl | ⟨1, _⟩ => rfl)
  rw [e]
  rfl

/-- 2·⟨x_b, e_r⟩: the product against the transposed prototype matrix, doubled. -/
theorem cross_at (x0 : FVec Ideal S16384x1024 .f32) (x1 : FVec Ideal S1000x1024 .f32) (x2 : FVec Ideal S1024x1024 .f32)
    (x3 : FVec Ideal S1024 .f32) (b : Fin 16384) (r : Fin 1000) :
    val_main_v12 (F := Ideal) x0 x1 x2 x3 (ix2 b r) = two * Cert.NearestProto.inner x0 (val_main_v3 (F := Ideal) x1 x2 x3) b r := by
  rw [val_main_v12_apply, val_main_v11_apply, val_main_v10_apply]
  show Ideal.ofBits .f32 0x40000000#32 * _ = _
  unfold Cert.NearestProto.inner
  refine congrArg (two * ·) (Finset.sum_congr rfl fun k _ => ?_)
  rw [val_main_v9_apply]
  have el : lidx_main_v10 (ix2 b r) k = ix2 b k :=
    funext fun a => Fin.ext (by match a with | ⟨0, _⟩ => rfl | ⟨1, _⟩ => rfl)
  have er : idx_main_v9 (ridx_main_v10 (ix2 b r) k) = ix2 r k :=
    funext fun a => Fin.ext (by match a with | ⟨0, _⟩ => rfl | ⟨1, _⟩ => rfl)
  rw [el, er]

/-! ## One entry of the distance matrix -/

/-- Entry (b, r) of the distance matrix: the clamped root of the expanded squared distance. -/
theorem entry_at (x0 : FVec Ideal S16384x1024 .f32) (x1 : FVec Ideal S1000x1024 .f32) (x2 : FVec Ideal S1024x1024 .f32)
    (x3 : FVec Ideal S1024 .f32) (b : Fin 16384) (r : Fin 1000) :
    val_main_v20 (F := Ideal) x0 x1 x2 x3 (ix2 b r)
      = clampRoot (sqDist x0 (val_main_v3 (F := Ideal) x1 x2 x3) b r) := by
  rw [val_main_v20_apply, val_main_v19_apply, val_main_v17_apply, val_main_v14_apply, val_main_v18_apply,
    batchNorm_at, cross_at, protoNorm_at]
  show Ideal.sqrt (max _ (Ideal.ofBits .f32 0x00000000#32)) = _
  rw [Ideal.ofBits_zero_f32]
  rfl

/-! ## The reshape: (b, p, c) is entry (b, p·100 + c) -/

theorem reshape_at (x0 : FVec Ideal S16384x1024 .f32) (x1 : FVec Ideal S1000x1024 .f32) (x2 : FVec Ideal S1024x1024 .f32)
    (x3 : FVec Ideal S1024 .f32) (b : Fin 16384) (p : Fin 10) (c : Fin 100) :
    val_main_v21 (F := Ideal) x0 x1 x2 x3 (ix3 b p c) = val_main_v20 (F := Ideal) x0 x1 x2 x3 (ix2 b (protoRow p c)) := by
  rw [val_main_v21_apply]
  refine congrArg (val_main_v20 (F := Ideal) x0 x1 x2 x3) (funext fun a => Fin.ext ?_)
  have hb := b.isLt
  have hp := p.isLt
  have hc := c.isLt
  match a with
  | ⟨0, _⟩ =>
    show ((b.val * 10 + p.val) * 100 + c.val) / 1000 = b.val
    omega
  | ⟨1, _⟩ =>
    show ((b.val * 10 + p.val) * 100 + c.val) % 1000 = p.val * 100 + c.val
    omega

/-! ## The fold over the ten prototypes -/

/-- The reduced axis is the middle one. -/
theorem reduces_mid : S16384x10x100.Reduces [1] S16384x100 := by decide

/-- Result index (b, c) with coordinate p inserted on the reduced axis is (b, p, c). -/
theorem lift_mid (b : Fin 16384) (c : Fin 100) (p : Fin (S16384x10x100.size 1)) :
    reduces_mid.lift (ix2 b c) p = ix3 b (⟨p.val, p.isLt⟩ : Fin 10) c := by
  funext a; apply Fin.ext
  fin_cases a <;> rfl

/-- THE REFERENCE AT AN INDEX: element (b, c) of the result is the distance to the nearest prototype of class c. -/
theorem result_at (x0 : FVec Ideal Cert.ReferenceIdeal.S16384x1024 .f32) (x1 : FVec Ideal Cert.ReferenceIdeal.S1000x1024 .f32)
    (x2 : FVec Ideal Cert.ReferenceIdeal.S1024x1024 .f32) (x3 : FVec Ideal Cert.ReferenceIdeal.S1024 .f32)
    (b : Fin 16384) (c : Fin 100) :
    Cert.ReferenceIdeal.Read.val_main_v22 (F := Ideal) x0 x1 x2 x3 (ix2 b c)
      = Cert.NearestProto.nearest x0 (Cert.ReferenceIdeal.Read.val_main_v3 (F := Ideal) x1 x2 x3) b c := by
  unfold val_main_v22
  rw [Host.reduce_eq_fold_single FloatOps.minimumf _ _ reducesTo_S16384x10x100_S16384x100_d1 reduces_mid h_S_]
  have hf : (val_main_v21 (F := Ideal) x0 x1 x2 x3 ∘ reduces_mid.lift (ix2 b c))
      = fun p : Fin 10 => clampRoot (sqDist x0 (val_main_v3 (F := Ideal) x1 x2 x3) b (protoRow p c)) :=
    funext fun p => by
      show val_main_v21 (F := Ideal) x0 x1 x2 x3 (reduces_mid.lift (ix2 b c) p) = _
      rw [lift_mid, reshape_at, entry_at]
      rfl
  unfold nearest
  rw [← fold_clampRoot]
  exact congrArg (fun f => Finset.fold min (Ideal.ofBits .f32 0x7F800000#32) f (Finset.univ : Finset (Fin 10))) hf

end Cert.ReferenceIdeal.RefValue

end
-- ==== Proof.BodyAt.lean ====
/-
  The kernel body's stored block, read at one index.

  The body holds a block x of 1024 batch rows (1024 features each), the transposed, lane-padded prototype matrix w
  (1024 × 1280: column p·128 + j is lane j of prototype group p) and the lane-padded row q of squared prototype
  norms (1 × 1280). It forms the table of expanded squared distances

      D(r, n) = ‖x_r‖² − 2·∑ₖ x(r, k)·w(k, n) + q(0, n),

  cuts its 1280 columns into the ten lane groups of 128, takes the minimum of the ten groups lane by lane along the
  balanced tree ((01)(23))((45)(67)) then (89), clamps at zero and takes the square root. Read at row r and lane j
  that is the lane-padded form of the specification: the clamped root of the tree minimum, over the ten groups p,
  of D(r, p·128 + j).

  The steps below read one operation each at an index given by its coordinates: the lane sum of the squares is a
  sum over the 1024 features; the change of float format is the identity on extended reals; the matrix product into
  the zero accumulator is the sum over the contracted axis; a column [1024] → [1024, 1] → [1024, 1280] repeats a
  row's value along the row; a row [1, 1280] → [1024, 1280] repeats it down the rows; a slice of 128 columns from
  offset p·128 reads column p·128 + j at lane j.
-/
import proofs.«158394_j86114094284878_2_alg».proof.Proof.Gen.KernelIdeal.Skeleton
import proofs.«158394_j86114094284878_2_alg».proof.Proof.NearestProto
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.SL.Sem
open Cert.NearestProto (two rowSq lane min10 clampRoot padded)

/-! ## The squared norm of a row: the lane sum and its two column forms -/

/-- The sum along axis 1 of the squares, at row r, is the sum of the squares of row r. -/
theorem sumSq_at (x0 : FVec Ideal S1024x1024 .f32) (h : S1024x1024.Reduces [1] S1024) (hφ : FKind.Formats .f32)
    (hacc : (0x00000000#32 : BitVec 32) = 0x00000000#32) (r : Fin 1024) :
    multiReduction .add [1] S1024 (mulf x0 x0) 0x00000000#32 h hφ hacc (ix1 r) = rowSq x0 r := by
  refine (Ideal.multiReduction_add_single (mulf x0 x0) 0x00000000#32 h hφ hacc (ix1 r)).trans ?_
  unfold Cert.NearestProto.rowSq
  refine Finset.sum_congr rfl fun k _ => ?_
  have e : h.lift (ix1 r) k = ix2 r k :=
    funext fun a => Fin.ext (by match a with | ⟨0, _⟩ => rfl | ⟨1, _⟩ => rfl)
  rw [mulf_apply, e]
  rfl

/-- A vector of 1024 values viewed as a column [1024, 1] reads, at (r, 0), the value at r. -/
theorem column_at {α : Type} (v : S1024.Idx → α) (h : S1024.ShapeCasts S1024x1) (r : Fin 1024) (c : Fin 1) :
    shapeCast S1024x1 v h (ix2 r c) = v (ix1 r) := by
  refine shapeCast_apply v h (ix2 r c) (ix1 r) ?_
  rw [Shape.rowMajor_val_one, Shape.rowMajor_val_two]
  show r.val = r.val * 1 + c.val
  have := c.isLt
  omega

/-- A column [1024, 1] repeated along 1280 columns reads, at (r, n), the column's value at row r. -/
theorem alongRow_at {α : Type} (v : S1024x1.Idx → α) (h : S1024x1.Broadcasts S1024x1280) (r : Fin 1024) (n : Fin 1280) :
    broadcastTo S1024x1280 v h (ix2 r n) = v (ix2 r (0 : Fin 1)) := by
  refine broadcastTo_apply v h (ix2 r n) (ix2 r (0 : Fin 1)) fun a => ?_
  match a with
  | ⟨0, _⟩ => show r.val = if (1024 : Nat) = 1 then 0 else r.val; rw [if_neg (by decide)]
  | ⟨1, _⟩ => show 0 = if (1 : Nat) = 1 then 0 else n.val; rw [if_pos rfl]

/-! ## The matrix product read at an index -/

theorem lhs_axis0 (i : S1024x1280.Idx) (q : dot_S1024x1024_S1024x1280_S1024x1280_1_0_0_1_n_n.contr.Idx) :
    (dot_S1024x1024_S1024x1280_S1024x1280_1_0_0_1_n_n.lhsIdx i q 0).val = (i 0).val := by
  unfold DotDims.lhsIdx
  rw [dif_neg (show ¬(0 : Fin S1024x1024.rank) ∈ dot_S1024x1024_S1024x1280_S1024x1280_1_0_0_1_n_n.lhsBatch by decide), dif_pos (show (0 : Fin S1024x1024.rank) ∈ dot_S1024x1024_S1024x1280_S1024x1280_1_0_0_1_n_n.lhsNonContracting by decide)]
  rfl
theorem lhs_axis1 (i : S1024x1280.Idx) (q : dot_S1024x1024_S1024x1280_S1024x1280_1_0_0_1_n_n.contr.Idx) :
    (dot_S1024x1024_S1024x1280_S1024x1280_1_0_0_1_n_n.lhsIdx i q 1).val = (q ⟨0, by decide⟩).val :=
  dot_S1024x1024_S1024x1280_S1024x1280_1_0_0_1_n_n.lhsIdx_val_of_single rfl i q
theorem rhs_axis0 (i : S1024x1280.Idx) (q : dot_S1024x1024_S1024x1280_S1024x1280_1_0_0_1_n_n.contr.Idx) :
    (dot_S1024x1024_S1024x1280_S1024x1280_1_0_0_1_n_n.rhsIdx i q 0).val = (q ⟨0, by decide⟩).val :=
  dot_S1024x1024_S1024x1280_S1024x1280_1_0_0_1_n_n.rhsIdx_val_of_single rfl i q
theorem rhs_axis1 (i : S1024x1280.Idx) (q : dot_S1024x1024_S1024x1280_S1024x1280_1_0_0_1_n_n.contr.Idx) :
    (dot_S1024x1024_S1024x1280_S1024x1280_1_0_0_1_n_n.rhsIdx i q 1).val = (i 1).val := by
  unfold DotDims.rhsIdx
  rw [dif_neg (show ¬(1 : Fin S1024x1280.rank) ∈ dot_S1024x1024_S1024x1280_S1024x1280_1_0_0_1_n_n.rhsBatch by decide), dif_pos (show (1 : Fin S1024x1280.rank) ∈ dot_S1024x1024_S1024x1280_S1024x1280_1_0_0_1_n_n.rhsNonContracting by decide)]
  rfl

/-- The product of a [1024, 1024] block and a [1024, 1280] matrix into the zero accumulator, at (r, n): the sum over
    the contracted axis k of left (r, k) times right (k, n). -/
theorem product_at (a : FVec Ideal S1024x1024 .bf16) (b : FVec Ideal S1024x1280 .bf16) (r : Fin 1024) (n : Fin 1280) :
    matmul dot_S1024x1024_S1024x1280_S1024x1280_1_0_0_1_n_n none a b (constant (F := Ideal) S1024x1280 .f32 0x00000000#32) (ix2 r n)
      = ∑ k : Fin 1024, a (ix2 r k) * b (ix2 k n) := by
  simp only [matmul]
  rw [Ideal.matmul_constant_zero_apply, ← Equiv.sum_comp (ValueIdx.contrEquiv1 dot_S1024x1024_S1024x1280_S1024x1280_1_0_0_1_n_n 1024 rfl rfl).symm]
  refine Finset.sum_congr rfl fun k _ => ?_
  have hk := ValueIdx.contrEquiv1_symm_val dot_S1024x1024_S1024x1280_S1024x1280_1_0_0_1_n_n 1024 rfl rfl k
  have el : dot_S1024x1024_S1024x1280_S1024x1280_1_0_0_1_n_n.lhsIdx (ix2 r n) ((ValueIdx.contrEquiv1 dot_S1024x1024_S1024x1280_S1024x1280_1_0_0_1_n_n 1024 rfl rfl).symm k) = ix2 r k := funext fun ax => Fin.ext (by
    match ax with
    | ⟨0, _⟩ => exact lhs_axis0 _ _
    | ⟨1, _⟩ => exact (lhs_axis1 _ _).trans hk)
  have er : dot_S1024x1024_S1024x1280_S1024x1280_1_0_0_1_n_n.rhsIdx (ix2 r n) ((ValueIdx.contrEquiv1 dot_S1024x1024_S1024x1280_S1024x1280_1_0_0_1_n_n 1024 rfl rfl).symm k) = ix2 k n := funext fun ax => Fin.ext (by
    match ax with
    | ⟨0, _⟩ => exact (rhs_axis0 _ _).trans hk
    | ⟨1, _⟩ => exact rhs_axis1 _ _)
  rw [el, er]

/-! ## The table of expanded squared distances -/

/-- The table the body forms before it cuts lane groups: the row's squared norm along the row, minus twice the
    product, plus the row of squared prototype norms down the rows. -/
def table (x0 : FVec Ideal S1024x1024 .f32) (x1 : FVec Ideal S1024x1280 .bf16) (x2 : FVec Ideal S1x1280 .f32) :
    FVec Ideal S1024x1280 .f32 :=
  addf
    (subf
      (broadcastTo S1024x1280
        (shapeCast S1024x1 (multiReduction .add [1] S1024 (mulf x0 x0) 0x00000000#32 reduces_S1024x1024_S1024 (.inl rfl) rfl)
          shapeCasts_S1024_S1024x1)
        broadcasts_S1024x1_S1024x1280)
      (mulf (broadcast S1024x1280 (Scalar.ofBits (F := Ideal) .f32 0x40000000#32))
        (matmul dot_S1024x1024_S1024x1280_S1024x1280_1_0_0_1_n_n none (truncf .bf16 x0 bitsLt_bf16_f32)
          (shapeCast S1024x1280 x1 shapeCasts_S1024x1280_S1024x1280) (constant (F := Ideal) S1024x1280 .f32 0x00000000#32))))
    (broadcastTo S1024x1280 (shapeCast S1x1280 x2 shapeCasts_S1x1280_S1x1280) broadcasts_S1x1280_S1024x1280)

/-- The table at (r, n). -/
theorem table_at (x0 : FVec Ideal S1024x1024 .f32) (x1 : FVec Ideal S1024x1280 .bf16) (x2 : FVec Ideal S1x1280 .f32)
    (r : Fin 1024) (n : Fin 1280) :
    table x0 x1 x2 (ix2 r n)
      = rowSq x0 r - two * (∑ k : Fin 1024, x0 (ix2 r k) * x1 (ix2 k n)) + x2 (ix2 (0 : Fin 1) n) := by
  unfold table
  rw [addf_apply, subf_apply, mulf_apply, broadcast_apply, alongRow_at, column_at, sumSq_at, shapeCast_self, shapeCast_self,
    product_at, broadcastTo_1b_ab_apply]
  rfl

/-! ## The ten lane groups, their tree minimum, the clamp and the root -/

/-- The group of 128 columns from offset o = p·128 reads, at (r, j), column p·128 + j: lane j of group p. -/
theorem group_at (o : Nat) (p : Fin 10) (ho : o = p.val * 128) (d : FVec Ideal S1024x1280 .f32)
    (h : S1024x1280.Slices ![0, o] S1024x128) (r : Fin 1024) (j : Fin 128) :
    extractStridedSlice S1024x128 ![0, o] d h (ix2 r j) = d (ix2 r (lane p j)) :=
  slice2_axis1_apply o d h r j (lane p j) (by subst ho; rfl)

/-- A square root of a vector, at an index, is the extended reals' root of the entry. -/
theorem root_at {s : Shape} {φ : FTy} (a : FVec Ideal s φ) (i : s.Idx) : sqrt a i = Ideal.sqrt (a i) := rfl

/-- What the body does to the table: the ten groups, the balanced tree of minima, the clamp at zero, the root. -/
def nearestLane (d : FVec Ideal S1024x1280 .f32) : FVec Ideal S1024x128 .f32 :=
  sqrt
    (maximumf
      (minimumf
        (minimumf
          (minimumf (minimumf (extractStridedSlice S1024x128 ![0, 0] d slices_S1024x1280_o0_0_S1024x128) (extractStridedSlice S1024x128 ![0, 128] d slices_S1024x1280_o0_128_S1024x128))
            (minimumf (extractStridedSlice S1024x128 ![0, 256] d slices_S1024x1280_o0_256_S1024x128) (extractStridedSlice S1024x128 ![0, 384] d slices_S1024x1280_o0_384_S1024x128)))
          (minimumf (minimumf (extractStridedSlice S1024x128 ![0, 512] d slices_S1024x1280_o0_512_S1024x128) (extractStridedSlice S1024x128 ![0, 640] d slices_S1024x1280_o0_640_S1024x128))
            (minimumf (extractStridedSlice S1024x128 ![0, 768] d slices_S1024x1280_o0_768_S1024x128) (extractStridedSlice S1024x128 ![0, 896] d slices_S1024x1280_o0_896_S1024x128))))
        (minimumf (extractStridedSlice S1024x128 ![0, 1024] d slices_S1024x1280_o0_1024_S1024x128) (extractStridedSlice S1024x128 ![0, 1152] d slices_S1024x1280_o0_1152_S1024x128)))
      (broadcast S1024x128 (Scalar.ofBits (F := Ideal) .f32 0x00000000#32)))

/-- At row r and lane j: the clamped root of the tree minimum over the ten groups of the table at lane j. -/
theorem nearestLane_at (d : FVec Ideal S1024x1280 .f32) (r : Fin 1024) (j : Fin 128) :
    nearestLane d (ix2 r j) = clampRoot (min10 fun p => d (ix2 r (lane p j))) := by
  unfold nearestLane
  simp only [root_at, maximumf_apply, minimumf_apply, broadcast_apply]
  rw [group_at 0 0 rfl, group_at 128 1 rfl, group_at 256 2 rfl, group_at 384 3 rfl, group_at 512 4 rfl,
    group_at 640 5 rfl, group_at 768 6 rfl, group_at 896 7 rfl, group_at 1024 8 rfl, group_at 1152 9 rfl]
  show Ideal.sqrt (max _ (Ideal.ofBits .f32 0x00000000#32)) = _
  rw [Ideal.ofBits_zero_f32]
  rfl

/-! ## The body's stored value -/

/-- The body's stored value is the tree of the table: the two definitions spell the same operations. -/
theorem pay_eq (x0 : FVec Ideal S1024x1024 .f32) (x1 : FVec Ideal S1024x1280 .bf16) (x2 : FVec Ideal S1x1280 .f32) :
    Gen.k0_pay1 (F := Ideal) x0 x1 x2 = nearestLane (table x0 x1 x2) := rfl

/-- The body's stored value at row r and lane j is the lane-padded form of the specification. -/
theorem pay_at (x0 : FVec Ideal S1024x1024 .f32) (x1 : FVec Ideal S1024x1280 .bf16) (x2 : FVec Ideal S1x1280 .f32)
    (r : Fin 1024) (j : Fin 128) :
    Gen.k0_pay1 (F := Ideal) x0 x1 x2 (ix2 r j) = padded x0 x1 x2 r j := by
  refine (congrFun (pay_eq x0 x1 x2) (ix2 r j)).trans ((nearestLane_at _ r j).trans ?_)
  unfold Cert.NearestProto.padded
  exact congrArg clampRoot (congrArg min10 (funext fun p => table_at x0 x1 x2 r (lane p j)))

end Cert.KernelIdeal.Body

end
-- ==== Proof.PaddedProtos.lean ====
/-
  The two arrays the host prepares for the distance kernel, as functions of the encoded prototypes, and what each holds
  at a class lane.

  The encoded prototypes are e = protos · enc_w + enc_b, 1000 rows of 1024: row p·100 + c is prototype p of class c.
  The host stores e in the narrow float format (the identity on ideal values), cuts the 1000 rows into 10 groups of 100,
  pads every group with 28 zero rows to 128, lays the groups end to end and transposes: a 1024 × 1280 matrix whose column
  p·128 + c, for c < 100, is row p·100 + c of e. Beside it, it takes each row's sum of squares of the narrow copy
  widened back, cuts the 1000 sums into 10 groups of 100, pads every group to 128 lanes with one large constant and lays
  the groups end to end in one row of 1280: lane p·128 + c, for c < 100, is ‖e_{p·100+c}‖². The lanes 100 … 127 of a
  group are padding and are not read here.
-/
import proofs.«158394_j86114094284878_2_alg».proof.Proof.Gen.KernelIdeal.Frame
import proofs.«158394_j86114094284878_2_alg».proof.Proof.NearestProto
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.HostSide

open Cert.KernelIdeal Cert.KernelIdeal.Gen Cert.NearestProto Idealize.ShloMosaic Idealize.ShloMosaic.ValueIdx Idealize.ShloMosaic.TcCoe Idealize.SL.Sem
open scoped BigOperators

/-! ## The two arrays as functions of the encoded prototypes -/

/-- The encoded prototypes: the prototype matrix times the encoder's weights, plus its bias along every row. -/
def ep (a1 : FVec Ideal S1000x1024 .f32) (a2 : FVec Ideal S1024x1024 .f32) (a3 : FVec Ideal S1024 .f32) : FVec Ideal S1000x1024 .f32 :=
  addf (Host.dotGeneral dot_S1000x1024_S1024x1024_S1000x1024_1_0_0_1_n_n none a1 a2)
    (broadcastInDim S1000x1024 ![0, 1] bcast_S1x1024_S1000x1024_0_1 (broadcastInDim S1x1024 ![1] bcast_S1024_S1x1024_1 a3))

/-- The encoded prototypes in the narrow format, seen as 10 groups of 100 rows, each group padded with zero rows to 128,
    the groups laid end to end (1280 rows), and transposed: column `p·128 + j` is row `j` of group `p`. -/
def paddedProtos (e : FVec Ideal S1000x1024 .f32) : FVec Ideal S1024x1280 .bf16 :=
  transpose S1024x1280 [1, 0]
    (shapeCast S1280x1024
      (pad S10x128x1024 ![0, 0, 0] ![0, 28, 0] ![0, 0, 0]
        (shapeCast S10x100x1024 (truncf .bf16 e bitsLt_bf16_f32) shapeCasts_S1000x1024_S10x100x1024)
        (sitofp (F := Ideal) .bf16 (constantI S_ 32 0#32))
        pads_S10x100x1024_S10x128x1024_000_0280_000 h_S_)
      shapeCasts_S10x128x1024_S1280x1024)
    transposes_S1280x1024_S1024x1280_1_0

/-- The row sums of squares of the narrow copy widened back, seen as 10 groups of 100, each group padded to 128 lanes
    with one large constant, the groups laid end to end in one row of 1280. -/
def paddedNorms (e : FVec Ideal S1000x1024 .f32) : FVec Ideal S1x1280 .f32 :=
  shapeCast S1x1280
    (pad S10x128 ![0, 0] ![0, 28] ![0, 0]
      (shapeCast S10x100
        (Host.reduceAdd
          (mulf (extf .f32 (truncf .bf16 e bitsLt_bf16_f32) bitsLt_bf16_f32)
            (extf .f32 (truncf .bf16 e bitsLt_bf16_f32) bitsLt_bf16_f32))
          (constant (F := Ideal) S_ .f32 0x00000000#32) reducesTo_S1000x1024_S1000_d1 h_S_)
        shapeCasts_S1000_S10x100)
      (constant (F := Ideal) S_ .f32 0x7149F2CA#32)
      pads_S10x100_S10x128_000_0280 h_S_)
    shapeCasts_S10x128_S1x1280

/-! ## The arrays the region finds are these functions of the arguments

The host operations before the region write each buffer once; read back in order they compose to the two terms above. -/

variable (m : (ℓ : Loc nD τ sig) → Buf (Elt Ideal) ℓ)

/-- The transposed, lane-padded prototype matrix the region finds is `paddedProtos` of the encoded prototypes. -/
theorem V_protos (c : Dev nD) : (V m c main_v11 : FVec Ideal S1024x1280 .bf16)
    = paddedProtos (ep (m ((c : Thread nD τ).loc main_arg1)) (m ((c : Thread nD τ).loc main_arg2)) (m ((c : Thread nD τ).loc main_arg3))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The lane-padded row of squared norms the region finds is `paddedNorms` of the encoded prototypes. -/
theorem V_norms (c : Dev nD) : (V m c main_v14 : FVec Ideal S1x1280 .f32)
    = paddedNorms (ep (m ((c : Thread nD τ).loc main_arg1)) (m ((c : Thread nD τ).loc main_arg2)) (m ((c : Thread nD τ).loc main_arg3))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## The two arrays read at a class lane

Lane `p·128 + c` with `c < 100` lies inside the unpadded box of group `p`, so each read passes through the padding to
row `p·100 + c` of the encoded prototypes. -/

/-- The transposed, lane-padded matrix at row `k` and the lane of class `cl` in group `p` is the encoded prototype
    `p·100 + cl` at coordinate `k` (the narrow format is the identity on ideal values). -/
theorem paddedProtos_at (e : FVec Ideal S1000x1024 .f32) (p : Fin 10) (cl : Fin 100) (k : Fin 1024) :
    paddedProtos e (ix2 k (lane p (classLane cl))) = e (ix2 (protoRow p cl) k) := by
  unfold paddedProtos
  -- the transpose: entry (k, L) is entry (L, k)
  refine (transpose_apply [1, 0] _ transposes_S1280x1024_S1024x1280_1_0 (ix2 k (lane p (classLane cl)))
    (ix2 (lane p (classLane cl)) k) (fun b => match b with
      | ⟨0, _⟩ => rfl
      | ⟨1, _⟩ => rfl)).trans ?_
  -- 1280 rows as 10 groups of 128: row p·128 + cl is row cl of group p
  refine (shapeCast_apply _ shapeCasts_S10x128x1024_S1280x1024 (ix2 (lane p (classLane cl)) k)
    (ix3 p (classLane cl) k) (by
      rewrite [Shape.rowMajor_val_three, Shape.rowMajor_val_two]
      show (p.val * 128 + cl.val) * 1024 + k.val = (p.val * 128 + cl.val) * 1024 + k.val
      rfl)).trans ?_
  -- the padding: row cl < 100 of a group is inside the unpadded box
  refine (pad_apply_of_inside ![0, 0, 0] ![0, 28, 0] ![0, 0, 0] _ _ pads_S10x100x1024_S10x128x1024_000_0280_000 h_S_
    (ix3 p (classLane cl) k) (ix3 p cl k) (fun a => match a with
      | ⟨0, _⟩ => by show p.val = 0 + p.val * (0 + 1); omega
      | ⟨1, _⟩ => by show cl.val = 0 + cl.val * (0 + 1); omega
      | ⟨2, _⟩ => by show k.val = 0 + k.val * (0 + 1); omega)).trans ?_
  -- 10 groups of 100 rows as 1000 rows: row cl of group p is row p·100 + cl
  refine (shapeCast_apply _ shapeCasts_S1000x1024_S10x100x1024 (ix3 p cl k) (ix2 (protoRow p cl) k) (by
      rewrite [Shape.rowMajor_val_three, Shape.rowMajor_val_two]
      show (p.val * 100 + cl.val) * 1024 + k.val = (p.val * 100 + cl.val) * 1024 + k.val
      rfl)).trans ?_
  rfl

/-- The lane-padded row of norms at the lane of class `cl` in group `p` is the squared norm of the encoded prototype
    `p·100 + cl`. -/
theorem paddedNorms_at (e : FVec Ideal S1000x1024 .f32) (p : Fin 10) (cl : Fin 100) :
    paddedNorms e (ix2 (0 : Fin 1) (lane p (classLane cl))) = rowSq e (protoRow p cl) := by
  unfold paddedNorms
  -- one row of 1280 lanes as 10 groups of 128: lane p·128 + cl is lane cl of group p
  refine (shapeCast_apply _ shapeCasts_S10x128_S1x1280 (ix2 (0 : Fin 1) (lane p (classLane cl)))
    (ix2 p (classLane cl)) (by
      rewrite [Shape.rowMajor_val_two, Shape.rowMajor_val_two]
      show p.val * 128 + cl.val = 0 * 1280 + (p.val * 128 + cl.val)
      omega)).trans ?_
  -- the padding: lane cl < 100 of a group is inside the unpadded box
  refine (pad_apply_of_inside ![0, 0] ![0, 28] ![0, 0] _ _ pads_S10x100_S10x128_000_0280 h_S_
    (ix2 p (classLane cl)) (ix2 p cl) (fun a => match a with
      | ⟨0, _⟩ => by show p.val = 0 + p.val * (0 + 1); omega
      | ⟨1, _⟩ => by show cl.val = 0 + cl.val * (0 + 1); omega)).trans ?_
  -- 10 groups of 100 as one vector of 1000: entry cl of group p is entry p·100 + cl
  refine (shapeCast_apply _ shapeCasts_S1000_S10x100 (ix2 p cl) (ix1 (protoRow p cl)) (by
      rewrite [Shape.rowMajor_val_one, Shape.rowMajor_val_two]
      show p.val * 100 + cl.val = p.val * 100 + cl.val
      rfl)).trans ?_
  -- the host's row sum from the zero word
  simp only [Host.reduceAdd, Ideal.hostReduceAdd_def]
  rw [Ideal.hostReduceAdd_single reducesTo_S1000x1024_S1000_d1 (by decide)]
  unfold rowSq
  refine (congrArg (· + _) ((constant_apply _ _).trans Ideal.ofBits_zero_f32)).trans ?_
  rw [zero_add]
  refine Finset.sum_congr rfl fun k _ => ?_
  have hk : (Shape.Reduces.lift (by decide : S1000x1024.Reduces [1] S1000) (ix1 (protoRow p cl)) k) = ix2 (protoRow p cl) k :=
    funext fun a => Fin.ext (by match a with | ⟨0, _⟩ => rfl | ⟨1, _⟩ => rfl)
  rw [hk]
  rfl

end Cert.KernelIdeal.HostSide

end
-- ==== Proof.ArrayValue.lean ====
/-
  The idealized kernel program's result array as one function of the arguments.

  The pallas_call walks the batch in sixteen blocks of 1024 rows; at every point the body sees one block of the batch,
  the whole lane-padded transposed prototype matrix and the whole lane-padded row of squared norms, and writes the
  block's rows of the output (128 lanes each). Each written row is the lane-padded form of the specification at that
  batch row, so the sixteen blocks, which tile the output, leave it holding the lane-padded form at every (row, lane).
  The one host line after the call keeps lanes 0 … 99 of every row; at those lanes the host-prepared arrays hold the
  encoded prototypes transposed and their squared norms, so the kept entry (b, c) is the distance from batch row b to
  the nearest prototype of class c.
-/
import proofs.«158394_j86114094284878_2_alg».proof.Proof.Gen.KernelIdeal.Frame
import proofs.«158394_j86114094284878_2_alg».proof.Proof.NearestProto
import proofs.«158394_j86114094284878_2_alg».proof.Proof.BodyAt
import proofs.«158394_j86114094284878_2_alg».proof.Proof.PaddedProtos
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Gen Cert.NearestProto

variable (m : (ℓ : Loc nD τ sig) → Buf (Elt Ideal) ℓ) (ρ : Dev nD → PrngReg)

theorem hz : (![0, 0] : Fin 2 → Nat) = fun _ => 0 := funext fun a => by fin_cases a <;> rfl

/-- The batch, the lane-padded transposed prototypes and the lane-padded squared norms, as the region finds them. -/
abbrev xarr (c : Dev nD) : FVec Ideal S16384x1024 .f32 := V m c main_arg0
abbrev warr (c : Dev nD) : FVec Ideal S1024x1280 .bf16 := V m c main_v11
abbrev qarr (c : Dev nD) : FVec Ideal S1x1280 .f32 := V m c main_v14

/-- What the region's output array ends holding: the lane-padded form at every (row, lane). -/
def outArr (c : Dev nD) : FVec Ideal S16384x128 .f32 := fun i =>
  padded (xarr m c) (warr m c) (qarr m c) ⟨(i 0).val, idx2_lt0 i⟩ ⟨(i 1).val, idx2_lt1 i⟩

/-- The printed index maps over the grid: the batch and the output move one block of 1024 rows per point; the
    prototypes and the norms stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The batch block at point `t` is rows `1024·t …` of the batch. -/
theorem xblk_at (c : Dev nD) (t : Fin cfg0.N) (r k : Fin 1024) (B : Fin 16384) (hB : B.val = t.val * 1024 + r.val) :
    (iblk m c 0 t : FVec Ideal S1024x1024 .f32) (ix2 r k) = xarr m c (ix2 B k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 1024 + 1 * r.val = B.val; rw [e0, hB]; omega
  | ⟨1, _⟩ => show win0_0.index t 1 * 1024 + 1 * k.val = k.val; rw [e1]; omega

/-- The prototypes' block is the whole lane-padded matrix at every point. -/
theorem wblk_eq (c : Dev nD) (t : Fin cfg0.N) : (iblk m c 1 t : FVec Ideal S1024x1280 .bf16) = warr m c := by
  obtain ⟨-, -, e0, e1, -⟩ := idx_facts t
  funext y
  unfold iblk
  rw [View.read_apply]
  show V m c main_v11 _ = V m c main_v11 y
  congr 1
  funext a
  apply Fin.ext
  match a with
  | ⟨0, _⟩ => show win0_1.index t 0 * 1024 + 1 * (y 0).val = (y 0).val; rw [e0]; omega
  | ⟨1, _⟩ => show win0_1.index t 1 * 1280 + 1 * (y 1).val = (y 1).val; rw [e1]; omega

/-- The norms' block is the whole lane-padded row at every point. -/
theorem qblk_eq (c : Dev nD) (t : Fin cfg0.N) : (iblk m c 2 t : FVec Ideal S1x1280 .f32) = qarr m c := by
  obtain ⟨-, -, -, -, e0, e1, -⟩ := idx_facts t
  funext y
  unfold iblk
  rw [View.read_apply]
  show V m c main_v14 _ = V m c main_v14 y
  congr 1
  funext a
  apply Fin.ext
  match a with
  | ⟨0, _⟩ => show win0_2.index t 0 * 1 + 1 * (y 0).val = (y 0).val; rw [e0]; omega
  | ⟨1, _⟩ => show win0_2.index t 1 * 1280 + 1 * (y 1).val = (y 1).val; rw [e1]; omega

/-- The body's stored value at (r, j) of point `t`'s block is the lane-padded form at row `1024·t + r`, lane `j`. -/
theorem point_eq (c : Dev nD) (t : Fin cfg0.N) (r : Fin 1024) (j : Fin 128) (B : Fin 16384) (hB : B.val = t.val * 1024 + r.val) :
    k0_pay1 (F := Ideal) (iblk m c 0 t) (iblk m c 1 t) (iblk m c 2 t) (ix2 r j) = padded (xarr m c) (warr m c) (qarr m c) B j := by
  refine (Body.pay_at (iblk m c 0 t) (iblk m c 1 t) (iblk m c 2 t) r j).trans ?_
  rw [wblk_eq m c t, qblk_eq m c t]
  unfold padded rowSq
  simp only [xblk_at m c t r _ B hB]

/-- WHAT POINT `t` WRITES BACK is block `t` of `outArr`. -/
theorem flushed_eq (c : Dev nD) (t : Fin cfg0.N) :
    (dats m 0 c).flushed 3 t = ((cfg0.win 3).blk t).view.read (Elt Ideal) (outArr m c) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S1024x1024) hz, View.ld_unit_zero (S := S1024x1280) hz, View.ld_unit_zero (S := S1x1280) hz]
  funext y
  have ht : t.val < 16 := lt_of_lt_of_eq t.isLt N_0
  have h0 : (y 0).val < 1024 := (y 0).isLt
  have h1 : (y 1).val < 128 := (y 1).isLt
  have hy : (cfg0.win 3).xinj (grid0.coords t) y = ix2 (⟨(y 0).val, h0⟩ : Fin 1024) (⟨(y 1).val, h1⟩ : Fin 128) :=
    funext fun a => by match a with | ⟨0, _⟩ => rfl | ⟨1, _⟩ => rfl
  show k0_pay1 (F := Ideal) (iblk m c 0 t) (iblk m c 1 t) (iblk m c 2 t) ((cfg0.win 3).xinj (grid0.coords t) y) = _
  rw [hy]
  refine (point_eq m c t ⟨(y 0).val, h0⟩ ⟨(y 1).val, h1⟩ ⟨t.val * 1024 + (y 0).val, by omega⟩ rfl).trans ?_
  rw [View.read_apply]
  unfold outArr
  refine congrArg₂ (padded (xarr m c) (warr m c) (qarr m c)) (Fin.ext ?_) (Fin.ext ?_)
  · show t.val * 1024 + (y 0).val = win0_3.index t 0 * 1024 + 1 * (y 0).val
    rw [e0]; omega
  · show (y 1).val = win0_3.index t 1 * 128 + 1 * (y 1).val
    rw [e1]; omega

/-- An index of the output array is in point `t`'s block iff each coordinate is in the block's range on its axis. -/
theorem mem_blk (t : Fin cfg0.N) (i : S16384x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v15).slice (win0_3.rect t)).set ↔ _
  rw [View.set_slice_whole, Rect.mem_set_unit]
  exact Iff.rfl

/-- The sixteen row blocks tile the output array: row `b` is in block `b / 1024`. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 16 := N_0
  have ht : (i 0).val / 1024 < cfg0.N := by rw [hN]; omega
  obtain ⟨-, -, -, -, -, -, e0, e1⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ 0 * 1024 ≤ (i 0).val ∧ (i 0).val < win0_3.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ 1 * 128 ≤ (i 1).val ∧ (i 1).val < win0_3.index ⟨(i 0).val / 1024, ht⟩ 1 * 128 + 128
    rw [e1]; omega

/-- So the region's output array ends holding `outArr`. -/
theorem final (c : Dev nD) : (dats m 0 c).arrAt 3 cfg0.N = outArr m c :=
  (dats m 0 c).arrAt_eq_of_cover 3 (outArr m c) (fun t _ => flushed_eq m c t) cover

/-- The one host line after the region keeps the first 100 lanes of each row. -/
theorem tail_eq (c : Dev nD) :
    Pipeline.afterTail₀ cfgs (dats m) 0 (V0 m) [hostOps1] c main_v16
      = extractStridedSlice S16384x100 ![0, 0] (outArr m c) slices_S16384x128_S16384x100_0_0 := by
  unfold Pipeline.afterTail₀
  show StableHlo.after hostOps1 _ (Proc.devRef .tc main_v16) = _
  after_results
  exact congrArg (fun X => extractStridedSlice S16384x100 ![0, 0] X slices_S16384x128_S16384x100_0_0)
    ((Pipeline.withArrays_arr spec0 launch0.win.arr_inj c (V0 m c) (fun w => (dats m 0 c).arrAt w cfg0.N) 3).trans (final m c))

/-- THE RESULT: entry (b, c) is the distance from batch row `b` to the nearest encoded prototype of class `c`. -/
def result (c : Dev nD) : FVec Ideal S16384x100 .f32 := fun i =>
  nearest (m ((c : Thread nD τ).loc main_arg0))
    (HostSide.ep (m ((c : Thread nD τ).loc main_arg1)) (m ((c : Thread nD τ).loc main_arg2)) (m ((c : Thread nD τ).loc main_arg3)))
    ⟨(i 0).val, idx2_lt0 i⟩ ⟨(i 1).val, idx2_lt1 i⟩

/-- Lanes 0 … 99 of the output array are the result: there the host-prepared arrays hold the encoded prototypes
    transposed and their squared norms. -/
theorem slice_eq (c : Dev nD) :
    extractStridedSlice S16384x100 ![0, 0] (outArr m c) slices_S16384x128_S16384x100_0_0 = result m c := by
  funext i
  obtain ⟨b, cl, rfl⟩ : ∃ (b : Fin 16384) (cl : Fin 100), i = ix2 b cl := ⟨i 0, i 1, eq_ix2 i⟩
  refine (extractStridedSlice_apply ![0, 0] (outArr m c) slices_S16384x128_S16384x100_0_0 (ix2 b cl) (ix2 b (classLane cl))
    (fun a => match a with
      | ⟨0, _⟩ => by show b.val = 0 + b.val; omega
      | ⟨1, _⟩ => by show cl.val = 0 + cl.val; omega)).trans ?_
  show padded (xarr m c) (warr m c) (qarr m c) b (classLane cl) = _
  have hx : xarr m c = m ((c : Thread nD τ).loc main_arg0) := V_main_arg0 m c
  rw [hx]
  refine padded_eq_nearest _ _ _ _ b cl (fun p k => ?_) (fun p => ?_)
  · exact (congrFun (HostSide.V_protos m c) _).trans (HostSide.paddedProtos_at _ p cl k)
  · exact (congrFun (HostSide.V_norms m c) _).trans (HostSide.paddedNorms_at _ p cl)

/-- The run, read: the result array at `result`, the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v16 (Pipeline.mem_restRefs_of main_v16 (by decide) (by decide))).trans ((tail_eq m c).trans (slice_eq m c)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.ArrayValue

end
-- ==== Proof.lean ====
/-
  The distance from every batch row to the nearest prototype of every class, computed two ways, agrees on the
  extended reals.

  Both programs encode the prototypes as e = protos · enc_w + enc_b (row p·100 + c is prototype p of class c) and expand
  the squared distance as ‖x_b‖² − 2·⟨x_b, e_r⟩ + ‖e_r‖². The kernel program lays the prototypes out in ten lane groups of
  128 (100 classes and 28 padding lanes), takes the minimum of the ten squared distances of a class lane by lane along
  a balanced tree, clamps it at zero and takes the root once, and keeps the 100 class lanes. The reference clamps and
  takes the root of every squared distance and then folds the minimum of a class's ten roots from +∞. Clamp-then-root is
  monotone on the extended reals and so commutes with the minimum; +∞ is neutral: the two results are one function of
  the arguments (Proof/NearestProto.lean). The precondition is not used by the value equation: no finiteness is needed.

  The pieces: the reference read at an index of its result (Proof/RefNearest.lean, over its run and read-at-an-index
  modules); the kernel body's stored value at an index (Proof/BodyAt.lean); the host-prepared padded arrays at a class
  lane (Proof/PaddedProtos.lean); the output array from its sixteen row blocks, the kept lanes and the run
  (Proof/ArrayValue.lean). The idealization rewrote nothing, so its conjunct is trivial.
-/
import proofs.«158394_j86114094284878_2_alg».proof.Defs
import proofs.«158394_j86114094284878_2_alg».proof.Proof.Gen.Kernel
import proofs.«158394_j86114094284878_2_alg».proof.Proof.Gen.Kernel.Skeleton
import proofs.«158394_j86114094284878_2_alg».proof.Proof.Gen.Kernel.Launch
import proofs.«158394_j86114094284878_2_alg».proof.Proof.Gen.Kernel.Points
import proofs.«158394_j86114094284878_2_alg».proof.Proof.Gen.Kernel.Frame
import proofs.«158394_j86114094284878_2_alg».proof.Proof.Gen.KernelIdeal
import proofs.«158394_j86114094284878_2_alg».proof.Proof.Gen.KernelIdeal.Skeleton
import proofs.«158394_j86114094284878_2_alg».proof.Proof.Gen.KernelIdeal.Launch
import proofs.«158394_j86114094284878_2_alg».proof.Proof.Gen.KernelIdeal.Points
import proofs.«158394_j86114094284878_2_alg».proof.Proof.Gen.KernelIdeal.Frame
import proofs.«158394_j86114094284878_2_alg».proof.Proof.Gen.ReferenceIdeal
import proofs.«158394_j86114094284878_2_alg».proof.Proof.Gen.Pre_finite_inputs
import proofs.«158394_j86114094284878_2_alg».proof.Proof.Gen.ReferenceIdeal.Run
import proofs.«158394_j86114094284878_2_alg».proof.Proof.Gen.ReferenceIdeal.Read
import proofs.«158394_j86114094284878_2_alg».proof.Proof.NearestProto
import proofs.«158394_j86114094284878_2_alg».proof.Proof.RefNearest
import proofs.«158394_j86114094284878_2_alg».proof.Proof.ArrayValue
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the distances to the nearest prototypes: the kernel
    program's result array is that function of its arguments, and the reference's result, read at every index, is the same
    function of its own, which are the kernel's. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  funext i
  obtain ⟨b, cl, rfl⟩ : ∃ (b : Fin 16384) (cl : Fin 100), i = ix2 b cl := ⟨i 0, i 1, eq_ix2 i⟩
  exact Cert.ReferenceIdeal.RefValue.result_at _ _ _ _ b cl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
